-- ==== Defs.lean ====
def Pre_Kernel [hPre_finite_inputs_Kernel : Cert.Pre_finite_inputs_Kernel.Facts] (m : (ℓ : Loc Cert.Kernel.nD Cert.Kernel.τ Cert.Kernel.sig) → Buf (Elt Bits) ℓ) : Prop :=
  ∀ c : Dev Cert.Kernel.nD,
    (Cert.Pre_finite_inputs_Kernel.fn (F := Bits) (m ((c.tc : Thread Cert.Kernel.nD Cert.Kernel.τ).loc Cert.Kernel.main_arg0))) = (fun _ => 1#1)

def Pre_KernelIdeal [hPre_finite_inputs_Kernel : Cert.Pre_finite_inputs_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_Kernel.fn (F := Ideal) (m ((c.tc : Thread Cert.KernelIdeal.nD Cert.KernelIdeal.τ).loc Cert.KernelIdeal.main_arg0))) = (fun _ => 1#1)

def Pre_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs_Kernel : Cert.Pre_finite_inputs_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![4096, 1024]⟩ ⟨2, ![8192, 2048]⟩ (Layout.meshBlock [2, 2] ![[0], [1]] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨2, ![1, 1024]⟩ ⟨2, ![1, 2048]⟩ (Layout.meshBlock [2, 2] ![[], [1]] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v3) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs_Kernel : Cert.Pre_finite_inputs_Kernel.Facts) (hPre_finite_inputs_ReferenceIdeal : Cert.Pre_finite_inputs_ReferenceIdeal.Facts),
    frame_Kernel (hKernel := hKernel) (hPre_finite_inputs_Kernel := hPre_finite_inputs_Kernel)
    ∧ frame_KernelIdeal (hKernelIdeal := hKernelIdeal) (hPre_finite_inputs_Kernel := hPre_finite_inputs_Kernel)
    ∧ frame_ReferenceIdeal (hReferenceIdeal := hReferenceIdeal) (hPre_finite_inputs_ReferenceIdeal := hPre_finite_inputs_ReferenceIdeal)
    ∧ preserves_Kernel_KernelIdeal
    ∧ algebraic_KernelIdeal_ReferenceIdeal (hKernelIdeal := hKernelIdeal) (hReferenceIdeal := hReferenceIdeal) (hPre_finite_inputs_Kernel := hPre_finite_inputs_Kernel)
-- ==== Pre_finite_inputs_Kernel.lean ====
abbrev S4096x1024 : Shape := ⟨2, ![4096, 1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel

variable [Facts]

def fn {F : FTy → Type} [FloatOps F] (main_arg0 : FVec F S4096x1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  main_v3
-- ==== Pre_finite_inputs_ReferenceIdeal.lean ====
abbrev S8192x2048 : Shape := ⟨2, ![8192, 2048]⟩
abbrev S_ : Shape := ⟨0, ![]⟩

class Facts : Prop where
  bcast_S_S8192x2048 : S_.BroadcastsInDim S8192x2048 (![] : Fin 0 → Fin S8192x2048.rank)
  reducesTo_S8192x2048_S_d0_1 : S8192x2048.ReducesTo [0, 1] S_
  h_S_ : 0 < S_.numel

variable [Facts]

def fn {F : FTy → Type} [FloatOps F] (main_arg0 : FVec F S8192x2048 .f32) : IVec S_ 1 :=
  let main_v0 : FVec F S8192x2048 .f32 := Host.absf main_arg0
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_c : IVec S_ 1 := constantI S_ 1 1#1
  let main_v3 : IVec S_ 1 := (fun x v => Host.reduce IntOp.andi x v reducesTo_S8192x2048_S_d0_1 h_S_) main_v2 main_c
  main_v3
-- ==== Kernel.lean ====
abbrev S4096x1024 : Shape := ⟨2, ![4096, 1024]⟩
abbrev S1x1024 : Shape := ⟨2, ![1, 1024]⟩
abbrev S2x1x1024 : Shape := ⟨3, ![2, 1, 1024]⟩
abbrev S_ : Shape := ⟨0, ![]⟩
abbrev S1024 : Shape := ⟨1, ![1024]⟩
abbrev S1x1x1024 : Shape := ⟨3, ![1, 1, 1024]⟩

abbrev nBuf : Space → Nat
  | .hbm => 2
  | .vmem => 3
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .local _ .vmem, ⟨0, _⟩ => ⟨S4096x1024, .f32⟩
  | .local _ .vmem, ⟨1, _⟩ => ⟨S1x1024, .f32⟩
  | .local _ .vmem, ⟨2, _⟩ => ⟨S2x1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 1 → Bool
  | ⟨0, _⟩ => false
  | _ => false

abbrev dmaSemScoped : Fin 4 → Bool
  | ⟨0, _⟩ => true
  | ⟨1, _⟩ => true
  | ⟨2, _⟩ => true
  | ⟨3, _⟩ => true
  | _ => false

abbrev sig : RefSig :=
  (ofTc nBuf bufTy 1 4 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_sem0_0 : DmaSem sig := 0
abbrev cc0_sem1_0 : DmaSem sig := 1
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_4 : BitVec 32 := 2#32
  let v8 : BitVec 32 := Scalar.muli v6 c2_i32_4
  let v9 : BitVec 32 := Scalar.addi c0_i32 v8
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_5 : BitVec 32 := 1#32
  let v10 : BitVec 32 := Scalar.muli v5 c1_i32_5
  let v11 : BitVec 32 := Scalar.addi v9 v10
  v11.toNat
def k0_dev2 (d0 : Dev nD) : Nat :=
  let c0_i32_14 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_13 : BitVec 32 := 2#32
  let v19 : BitVec 32 := Scalar.muli v6 c2_i32_13
  let v20 : BitVec 32 := Scalar.addi c0_i32_14 v19
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_15 : BitVec 32 := 1#32
  let v21 : BitVec 32 := Scalar.muli v5 c1_i32_15
  let v22 : BitVec 32 := Scalar.addi v20 v21
  v22.toNat
abbrev stage0_0 : Fin 1 → Memref sig .tc .vmem S4096x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

class Facts₀ : Prop where
  hamt_1 : (1#32 : BitVec 32).msb = false
  inb_S4096x1024_S4096x1024_0_0 : ∀ a, (![0, 0] : Fin 2 → Nat) a + S4096x1024.size a ≤ S4096x1024.size a
  h_S4096x1024 : 0 < S4096x1024.numel
  shapeCasts_S4096x1024_S4096x1024 : S4096x1024.ShapeCasts S4096x1024
  reduces_S4096x1024_S1024 : S4096x1024.Reduces [0] S1024
  shapeCasts_S1024_S1x1024 : S1024.ShapeCasts S1x1024
  inb_S2x1x1024_S1x1x1024_0_0_0 : ∀ a, (![0, 0, 0] : Fin 3 → Nat) a + S1x1x1024.size a ≤ S2x1x1024.size a
  h_S1x1x1024 : 0 < S1x1x1024.numel
  shapeCasts_S1x1x1024_S1x1024 : S1x1x1024.ShapeCasts S1x1024
  shapeCasts_S1x1024_S1x1x1024 : S1x1024.ShapeCasts S1x1x1024
  inb_S2x1x1024_S1x1x1024_1_0_0 : ∀ a, (![1, 0, 0] : Fin 3 → Nat) a + S1x1x1024.size a ≤ S2x1x1024.size a
  squeezes_S1x1x1024_S1x1024 : S1x1x1024.Squeezes S1x1024
  inb_S1x1024_S1x1024_0_0 : ∀ a, (![0, 0] : Fin 2 → Nat) a + S1x1024.size a ≤ S1x1024.size a
  h_S1x1024 : 0 < S1x1024.numel
  hcc0_scratch1 : 2 + S_.numel ≤ 4
  hcc0_scratch2 : 3 + S_.numel ≤ 4
  k0_dev1_lt : ∀ d0 : Dev nD, (k0_dev1 d0) < nD
  k0_dev2_lt : ∀ d0 : Dev nD, (k0_dev2 d0) < nD
  hstage0_0 : ∀ j, (stage0_0 j).IsWhole
  hstage0_1 : ∀ j, (stage0_1 j).IsWhole

variable [Facts₀]

abbrev cc0_scratch1 : DmaSems sig S_ := SemArray.consecutive 2 S_ hcc0_scratch1
abbrev cc0_scratch2 : DmaSems sig S_ := SemArray.consecutive 3 S_ hcc0_scratch2

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_v1) true false (stage0_1 0) (sem0_1 0) (Memref.isWhole_whole _) (hstage0_1 0)

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S8192x2048 : Shape := ⟨2, ![8192, 2048]⟩
abbrev S_ : Shape := ⟨0, ![]⟩
abbrev S2048 : Shape := ⟨1, ![2048]⟩
abbrev S1x2048 : Shape := ⟨2, ![1, 2048]⟩

abbrev nBuf : Space → Nat
  | .hbm => 7
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S_, .f32⟩
  | .hbm, ⟨2, _⟩ => ⟨S2048, .f32⟩
  | .hbm, ⟨3, _⟩ => ⟨S1x2048, .f32⟩
  | .hbm, ⟨4, _⟩ => ⟨S_, .f32⟩
  | .hbm, ⟨5, _⟩ => ⟨S1x2048, .f32⟩
  | .hbm, ⟨6, _⟩ => ⟨S1x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_cst_0 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]

class Facts₀ : Prop where
  reducesTo_S8192x2048_S2048_d0 : S8192x2048.ReducesTo [0] S2048
  h_S_ : 0 < S_.numel
  bcast_S2048_S1x2048_1 : S2048.BroadcastsInDim S1x2048 (![1] : Fin 1 → Fin S1x2048.rank)
  bcast_S_S1x2048 : S_.BroadcastsInDim S1x2048 (![] : Fin 0 → Fin S1x2048.rank)

variable [Facts₀]

class Facts : Prop extends Facts₀ where

variable [Facts]
-- ==== Proof.ProtoKernelIdeal.lean ====
/-
  The exchange behind a column mean on the 2 × 2 mesh.

  Device c = 2·cx + cy holds the block x[4096·cx ..+4096, 1024·cy ..+1024] and must end with columns
  1024·cy ..+1024 of the mean over all 8192 rows.  The devices pair up along the mesh's first axis:
  peer c = (1 − cx, cy), an involution without fixed point.  Each device sums its block's rows into
  slot 0 of a two-slot scratch, the pair exchange their slot 0 into each other's slot 1, and each adds the
  two slots and scales by 2⁻¹³.

  This module fixes the protocol of that exchange: three cells per device — the entry handshake's cell
  (one unit, paid by the peer's signal, handing over the peer's slot 1 to be written), the copy's send cell
  and its receive cell (paid by the peer's copy, handing over this device's slot 1 holding the peer's row of
  sums) — one round each; what a device owes when it starts; and the levels under which no wait can block
  for ever: a device waits on its handshake cell owing only a receive cell's units, and on its copy's cells
  owing nothing.
-/
import proofs.«900959_g7700000000000960_dist_mean_ax0_xy_m4096_n1024_v7x_xy2x2_bf16_1_alg».proof.Proof.Gen.KernelIdeal
import proofs.«900959_g7700000000000960_dist_mean_ax0_xy_m4096_n1024_v7x_xy2x2_bf16_1_alg».proof.Proof.Gen.KernelIdeal.Skeleton
import proofs.«900959_g7700000000000960_dist_mean_ax0_xy_m4096_n1024_v7x_xy2x2_bf16_1_alg».proof.Proof.Gen.KernelIdeal.Launch
import Idealize.ShloMosaic.Lib.Pipeline.Launch
import Idealize.ShloMosaic.Lib.Pipeline.Kit
import Idealize.ShloMosaic.Lib.Pipeline.Value
import Idealize.ShloMosaic.Lib.Exec.Geometry
import Idealize.ShloMosaic.Lib.Tactic

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## Two copies of the rounds algebra: the pipeline's own and the exchange's (one duty a round) -/

abbrev UB : Type := URounds (GSem nD τ sig) Unit
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: any contents, every counter zero. -/
def s₀ : MemSt nD τ sig (Elt F) := ⟨m, fun _ => 0, ρ⟩

/-! ## The pairing along the first mesh axis -/

/-- Device 2·cx + cy ↦ 2·(1 − cx) + cy. -/
def peer (c : Dev nD) : Dev nD := ⟨(c.val % 2 + 2) - 2 * (c.val / 2), by show _ < 4; have : c.val < 4 := c.isLt; omega⟩

theorem peer_peer (c : Dev nD) : peer (peer c) = c := by revert c; decide
theorem peer_ne (c : Dev nD) : peer c ≠ c := by revert c; decide

/-- Both device chains of the body — the signal's and the copy's — name the peer. -/
theorem dev1_eq (c : Dev nD) : (⟨k0_dev1 c, k0_dev1_lt c⟩ : Dev nD) = peer c := Fin.ext (k0_dev1_eq c)
theorem dev2_eq (c : Dev nD) : (⟨k0_dev2 c, k0_dev2_lt c⟩ : Dev nD) = peer c := Fin.ext (k0_dev2_eq c)

def pairing : Dev nD ≃ Dev nD := ⟨peer, peer, peer_peer, peer_peer⟩

/-! ## Memrefs, the two slots, the cells -/

abbrev xM : Memref sig .tc .vmem S4096x1024 .f32 := Memref.whole cc0_stg0_0
abbrev oM : Memref sig .tc .vmem S1x1024 .f32 := Memref.whole cc0_stg1_0
abbrev sM : Memref sig .tc .vmem S2x1x1024 .f32 := Memref.whole cc0_scratch0

/-- Slot 0 (this device's row of sums) and slot 1 (where the peer's lands) of the scratch. -/
abbrev r0 : Rect S2x1x1024 := Rect.unit (s := S2x1x1024) ![0, 0, 0] S1x1x1024.size inb_S2x1x1024_S1x1x1024_0_0_0
abbrev r1 : Rect S2x1x1024 := Rect.unit (s := S2x1x1024) ![1, 0, 0] S1x1x1024.size inb_S2x1x1024_S1x1x1024_1_0_0

/-- The copy's two ends: slot 0 here, slot 1 on the peer, each seen as one row of 1024. -/
abbrev srcM : Memref sig .tc .vmem S1x1024 .f32 := (sM.slice r0 (fun _ => rfl)).squeeze S1x1024 squeezes_S1x1x1024_S1x1024
abbrev dstM : Memref sig .tc .vmem S1x1024 .f32 := (sM.slice r1 (fun _ => rfl)).squeeze S1x1024 squeezes_S1x1x1024_S1x1024

abbrev barS : Sem sig := (SemArray.scalar (sig.barrier 0 rfl) : Sems sig S_).sem
abbrev sendS : DmaSems sig S_ := cc0_scratch1
abbrev recvS : DmaSems sig S_ := cc0_scratch2

abbrev barCell (c : Dev nD) : GSem nD τ sig := ((c : Thread nD τ), .reg barS)
abbrev sendCell (c : Dev nD) : GSem nD τ sig := ((c : Thread nD τ), .dma sendS.sem)
abbrev recvCell (c : Dev nD) : GSem nD τ sig := ((c : Thread nD τ), .dma recvS.sem)

/-- The kernel's own (scoped) semaphores: send, receive; and all three cells of a device. -/
abbrev osem : Fin 2 → SemLoc sig := fun | 0 => .dma sendS.sem | 1 => .dma recvS.sem
abbrev csem : Fin 3 → SemLoc sig := fun | 0 => .reg barS | 1 => .dma sendS.sem | 2 => .dma recvS.sem
abbrev kcell (ck : Dev nD × Fin 3) : GSem nD τ sig := ((ck.1 : Thread nD τ), csem ck.2)

abbrev N : ℕ := (dstM : Memref sig .tc .vmem S1x1024 .f32).view.dmaCredit
theorem N_pos : 0 < N := View.dmaCredit_pos _ (by decide)

/-! ## The slots' element sets -/

theorem src_set : (srcM : Memref sig .tc .vmem S1x1024 .f32).view.set = ((sM : Memref sig .tc .vmem S2x1x1024 .f32).access r0).set :=
  View.set_reshape _ _
theorem dst_set : (dstM : Memref sig .tc .vmem S1x1024 .f32).view.set = ((sM : Memref sig .tc .vmem S2x1x1024 .f32).access r1).set :=
  View.set_reshape _ _

/-- The two slots share no element. -/
theorem slots_disjoint : Disjoint (srcM : Memref sig .tc .vmem S1x1024 .f32).view.set (dstM : Memref sig .tc .vmem S1x1024 .f32).view.set := by
  rw [src_set, dst_set]
  exact View.disjoint_slice_of_disj _ r0 r1 (by decide)

/-! ## Contents -/

/-- Device c's block of x, as staged. -/
def xstg (c : Dev nD) : (cc0_stg0_0 : Ref sig .tc).ty.Contents (Elt F) :=
  (win0_0.blk (0 : Fin 1)).view.read (Elt F) ((s₀ m ρ).mem ((c : Thread nD τ).loc main_arg0))

/-- Device c's row of column sums over its 4096 rows. -/
def row (c : Dev nD) : Vec F S1x1x1024 .f32 := k0_pay2 (xstg m ρ c)

/-- The same row as the copy carries it: one row of 1024. -/
def rowFlat (c : Dev nD) : Vec F S1x1024 .f32 := shapeCast S1x1024 (row m ρ c) shapeCasts_S1x1x1024_S1x1024

/-- The kernel's result on device c: (its row + its peer's) · 2⁻¹³. -/
def outAt (c : Dev nD) : (cc0_stg1_0 : Ref sig .tc).ty.Contents (Elt F) := k0_pay1 (row m ρ c) (row m ρ (peer c))

/-- The final arithmetic sees its second operand only through its one-row form. -/
theorem pay1_congr (a b b' : Vec F S1x1x1024 .f32)
    (h : shapeCast S1x1024 b shapeCasts_S1x1x1024_S1x1024 = shapeCast S1x1024 b' shapeCasts_S1x1x1024_S1x1024) :
    k0_pay1 a b = k0_pay1 a b' := by
  unfold k0_pay1
  simp only [h]

/-- Slot 0 after the local store, at a fixed choice of the buffer's other elements (only slot 0's count). -/
def canon0 (c : Dev nD) : Buf (Elt F) ((srcM : Memref sig .tc .vmem S1x1024 .f32).view.loc (c : Thread nD τ)) :=
  ((sM : Memref sig .tc .vmem S2x1x1024 .f32).access r0).write (Elt F) ((s₀ m ρ).mem ((c : Thread nD τ).loc cc0_scratch0)) (row m ρ c) Finset.univ

theorem read_canon0 (c : Dev nD) : ((sM : Memref sig .tc .vmem S2x1x1024 .f32).access r0).read (Elt F) (canon0 m ρ c) = row m ρ c :=
  View.read_write_univ _ _

/-- What the copy reads at its source: the row, as one row of 1024. -/
theorem src_read_canon0 (c : Dev nD) : (srcM : Memref sig .tc .vmem S1x1024 .f32).view.read (Elt F) (canon0 m ρ c) = rowFlat m ρ c := by
  unfold rowFlat; rw [← read_canon0 m ρ c]; rfl

/-! ## Points-to of the slots -/

def s0Pts (c : Dev nD) (q : PosShare TreeShare) (f : Buf (Elt F) ((srcM : Memref sig .tc .vmem S1x1024 .f32).view.loc (c : Thread nD τ))) : sProp 𝕄 :=
  (srcM : Memref sig .tc .vmem S1x1024 .f32).view.loc (c : Thread nD τ) ↦[(srcM : Memref sig .tc .vmem S1x1024 .f32).view.set]{q} f
def s1Pts (c : Dev nD) (f : Buf (Elt F) ((dstM : Memref sig .tc .vmem S1x1024 .f32).view.loc (c : Thread nD τ))) : sProp 𝕄 :=
  (dstM : Memref sig .tc .vmem S1x1024 .f32).view.loc (c : Thread nD τ) ↦[(dstM : Memref sig .tc .vmem S1x1024 .f32).view.set]{fullShare} f

instance s0Pts_storable (c : Dev nD) (q) (f) : BI.Storable (upEmb : UEmb _ 𝕄) (s0Pts (F := F) c q f) := by unfold s0Pts; infer_instance
instance s1Pts_storable (c : Dev nD) (f) : BI.Storable (upEmb : UEmb _ 𝕄) (s1Pts (F := F) c f) := by unfold s1Pts; infer_instance

/-! ## The schedule: one round, one duty in each cell -/

/-- The peer's signal hands c the peer's slot 1, to be written, and that the peer is at round 0 of its receive cell. -/
def barPay (c : Dev nD) : sProp 𝕄 := iprop((∃ f, s1Pts (peer c) f) ∗ reached ER (recvCell (peer c)) 0)
/-- The peer's copy hands c its slot 1 holding the peer's row of sums. -/
def recvPay (c : Dev nD) : sProp 𝕄 :=
  iprop(∃ f, ⌜(dstM : Memref sig .tc .vmem S1x1024 .f32).view.read (Elt F) f = rowFlat m ρ (peer c)⌝ ∗ s1Pts c f)
/-- c's own copy, once its source is read out, returns the half of slot 0 it was lent. -/
def sendPay (c : Dev nD) : sProp 𝕄 := s0Pts c fullShare.right (canon0 m ρ c)

abbrev IsBar (g : GSem nD τ sig) : Prop := g.1.2 = .tc ∧ g.2 = .reg barS
abbrev IsXfer (g : GSem nD τ sig) : Prop := g.1.2 = .tc ∧ (g.2 = .dma sendS.sem ∨ g.2 = .dma recvS.sem)

def pairRd : Rounds.Schedule (GSem nD τ sig) Unit 𝕄 where
  duties g r := if r = 0 ∧ (IsBar g ∨ IsXfer g) then {()} else ∅
  unitless _ := False
  amount g _ _ := if g.2 = .reg barS then 1 else N
  payload g _ _ :=
    if g.2 = .reg barS then barPay g.1.1
    else if g.2 = .dma recvS.sem then recvPay m ρ g.1.1
    else if g.2 = .dma sendS.sem then sendPay m ρ g.1.1
    else iprop(emp)
  amount_pos g _ _ _ := by
    by_cases h : g.2 = .reg barS
    · rw [if_pos h]; exact Nat.one_pos
    · rw [if_neg h]; exact N_pos

instance pairRd_payload_storable (g : GSem nD τ sig) (r : ℕ) (d : Unit) :
    BI.Storable (upEmb : UEmb _ 𝕄) ((pairRd (F := F) m ρ).payload g r d) := by
  show BI.Storable upEmb (if g.2 = .reg barS then barPay g.1.1 else if g.2 = .dma recvS.sem then recvPay m ρ g.1.1
    else if g.2 = .dma sendS.sem then sendPay m ρ g.1.1 else iprop(emp))
  unfold barPay recvPay sendPay
  (repeat' split) <;> infer_instance

section Sched
variable (c : Dev nD)

theorem send_ne_bar : (SemLoc.dma sendS.sem : SemLoc sig) ≠ .reg barS := fun h => by cases h
theorem recv_ne_bar : (SemLoc.dma recvS.sem : SemLoc sig) ≠ .reg barS := fun h => by cases h
theorem send_ne_recv : (SemLoc.dma sendS.sem : SemLoc sig) ≠ .dma recvS.sem := by decide
theorem recv_ne_send : (SemLoc.dma recvS.sem : SemLoc sig) ≠ .dma sendS.sem := by decide

theorem duties_bar : (pairRd (F := F) m ρ).duties (barCell c) 0 = {()} := by dsimp only [pairRd]; exact if_pos ⟨rfl, .inl ⟨rfl, rfl⟩⟩
theorem duties_send : (pairRd (F := F) m ρ).duties (sendCell c) 0 = {()} := by dsimp only [pairRd]; exact if_pos ⟨rfl, .inr ⟨rfl, .inl rfl⟩⟩
theorem duties_recv : (pairRd (F := F) m ρ).duties (recvCell c) 0 = {()} := by dsimp only [pairRd]; exact if_pos ⟨rfl, .inr ⟨rfl, .inr rfl⟩⟩
theorem duties_later (g : GSem nD τ sig) : ∀ r, 1 ≤ r → (pairRd (F := F) m ρ).duties g r = ∅ :=
  fun r hr => by dsimp only [pairRd]; rw [if_neg fun h => by omega]

theorem amount_bar (d : Unit) : (pairRd (F := F) m ρ).amount (barCell c) 0 d = 1 := by dsimp only [pairRd]; exact if_pos rfl
theorem amount_send (d : Unit) : (pairRd (F := F) m ρ).amount (sendCell c) 0 d = N := by dsimp only [pairRd]; exact if_neg send_ne_bar
theorem amount_recv (d : Unit) : (pairRd (F := F) m ρ).amount (recvCell c) 0 d = N := by dsimp only [pairRd]; exact if_neg recv_ne_bar

theorem expect_bar : (pairRd (F := F) m ρ).expect (barCell c) 0 = 1 := by
  unfold Schedule.expect Schedule.amountOf; rw [duties_bar, Finset.sum_singleton, amount_bar]
theorem expect_send : (pairRd (F := F) m ρ).expect (sendCell c) 0 = N := by
  unfold Schedule.expect Schedule.amountOf; rw [duties_send, Finset.sum_singleton, amount_send]
theorem expect_recv : (pairRd (F := F) m ρ).expect (recvCell c) 0 = N := by
  unfold Schedule.expect Schedule.amountOf; rw [duties_recv, Finset.sum_singleton, amount_recv]

theorem payload_bar (d : Unit) : (pairRd (F := F) m ρ).payload (barCell c) 0 d = barPay c := by dsimp only [pairRd]; rw [if_pos rfl]
theorem payload_send (d : Unit) : (pairRd (F := F) m ρ).payload (sendCell c) 0 d = sendPay m ρ c := by
  dsimp only [pairRd]; rw [if_neg send_ne_bar, if_neg send_ne_recv, if_pos rfl]
theorem payload_recv (d : Unit) : (pairRd (F := F) m ρ).payload (recvCell c) 0 d = recvPay m ρ c := by
  dsimp only [pairRd]; rw [if_neg recv_ne_bar, if_pos rfl]

theorem rest_bar : bigSep ((pairRd (F := F) m ρ).duties (barCell c) 0 \ ∅) (fun d => (pairRd (F := F) m ρ).payload (barCell c) 0 d) = barPay c := by
  rw [Finset.sdiff_empty, duties_bar, bigSep_singleton, payload_bar]
theorem rest_send : bigSep ((pairRd (F := F) m ρ).duties (sendCell c) 0 \ ∅) (fun d => (pairRd (F := F) m ρ).payload (sendCell c) 0 d) = sendPay m ρ c := by
  rw [Finset.sdiff_empty, duties_send, bigSep_singleton, payload_send]
theorem rest_recv : bigSep ((pairRd (F := F) m ρ).duties (recvCell c) 0 \ ∅) (fun d => (pairRd (F := F) m ρ).payload (recvCell c) 0 d) = recvPay m ρ c := by
  rw [Finset.sdiff_empty, duties_recv, bigSep_singleton, payload_recv]

end Sched

/-! ## What each device owes at launch; the levels -/

/-- Device c owes its peer's receive cell the row's credit and its peer's handshake cell one unit (the signal,
    first in program order, is the last summand). -/
def O₀ (c : Dev nD) : CellTallies nD τ sig Unit := tallyAt (recvCell (peer c)) () N + tallyAt (barCell (peer c)) () 1

def L (g : GSem nD τ sig) : Finset Unit := if g.1.2 = .tc then {()} else ∅
/-- handshake cells at 1, receive cells at 2, everything else (staging, send) at 0. -/
def lv (g : GSem nD τ sig) (_ : Unit) : ℕ := if g.2 = .reg barS then 1 else if g.2 = .dma recvS.sem then 2 else 0

theorem L_of_ne (g : GSem nD τ sig) (h : g.1.2 ≠ .tc) : L g = ∅ := if_neg h
theorem L_tc (c : Dev nD) (sm : SemLoc sig) : L ((c : Thread nD τ), sm) = {()} := if_pos rfl

theorem O₀_pos {c : Dev nD} {g : GSem nD τ sig} {u : Unit} (h : 0 < O₀ c g u) :
    g = recvCell (peer c) ∨ g = barCell (peer c) := by
  unfold O₀ at h
  rw [Pi.add_apply, Finsupp.add_apply, tallyAt_apply, tallyAt_apply] at h
  by_contra hn
  rw [not_or] at hn
  rw [if_neg (fun h' => hn.1 h'.1), if_neg (fun h' => hn.2 h'.1)] at h
  exact Nat.lt_irrefl 0 h

/-- A staging cell or the send cell may be waited on whatever the device still owes: all it owes sits higher. -/
theorem mayWait_stage (c : Dev nD) (q : DmaSem sig) (hq : SemLoc.dma q ≠ .dma recvS.sem) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with rfl | rfl <;> exact Finset.mem_singleton_self _)
      (fun p hp => by rw [Finset.mem_singleton.mp hp]; dsimp only [lv]; rw [if_neg (fun h => by cases h), if_neg hq])
      (fun g u hg => by
        rcases O₀_pos hg with rfl | rfl
        · dsimp only [lv]; rw [if_neg recv_ne_bar, if_pos rfl]; decide
        · dsimp only [lv]; rw [if_pos rfl]; decide)
  · rw [MayWait_zero]; iintro -; iempintro

/-- At its handshake wait a device owes its peer's receive credit only: a receive cell, above the handshake cell. -/
theorem mayWait_bar (c : Dev nD) :
    (levAts L lv : sProp 𝕄) ⊢ MayWait (c : Thread nD τ) (.reg barS) () (tallyAt (recvCell (peer c)) () N) :=
  MayOwe.of_cut (L := L) (lev := lv) 1 (fun p hp => by rw [Finset.mem_singleton.mp hp, L_tc]; exact Finset.mem_singleton_self _)
    (fun g u hg => by
      rw [tallyAt_apply] at hg
      by_cases h : g = recvCell (peer c) ∧ u = ()
      · rw [h.1, L_tc]; exact Finset.mem_singleton_self _
      · rw [if_neg h] at hg; exact absurd hg (Nat.lt_irrefl 0))
    (fun p hp => by rw [Finset.mem_singleton.mp hp]; dsimp only [lv]; rw [if_pos rfl])
    (fun g u hg => by
      rw [tallyAt_apply] at hg
      by_cases h : g = recvCell (peer c) ∧ u = ()
      · rw [h.1]; dsimp only [lv]; rw [if_neg recv_ne_bar, if_pos rfl]; decide
      · rw [if_neg h] at hg; exact absurd hg (Nat.lt_irrefl 0))

end Cert.KernelIdealProof

end
-- ==== Proof.BodyKernelIdeal.lean ====
/-
  One device's body of the exchange, stepped once at a symbolic device c.

  From its three cells' invariants, its positions at round 0, the tokens of the duties it pays (its peer's
  handshake duty, its peer's receive duty, its own send duty), its launch credit and the whole scratch at any
  contents, device c: cuts the scratch into its two slots and hands slot 1 to its peer with the handshake signal;
  sums its block's rows into slot 0; after the handshake wait holds its peer's slot 1; lends the copy one half of
  slot 0 and keeps the other to read; after the receive wait holds its own slot 1 with the peer's row in it; stores
  (row c + row (peer c)) · 2⁻¹³; after the send wait has slot 0 whole again, rejoins the scratch and closes its two
  own cells.
-/
import proofs.«900959_g7700000000000960_dist_mean_ax0_xy_m4096_n1024_v7x_xy2x2_bf16_1_alg».proof.Proof.ProtoKernelIdeal

noncomputable section

namespace Cert.KernelIdealProof

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The pipeline's proof data -/

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

/-- The invariants device c's body opens: its own three cells', its peer's handshake cell's (its signal) and its
    peer's receive cell's (its copy). -/
def invs (K : Dev nD × Fin 3 → ℕ) (c : Dev nD) : sProp 𝕄 :=
  iprop(cellInv ER (pairRd m ρ) (K (c, 0)) (barCell c) ∗ cellInv ER (pairRd m ρ) (K (c, 1)) (sendCell c) ∗ cellInv ER (pairRd m ρ) (K (c, 2)) (recvCell c)
    ∗ cellInv ER (pairRd m ρ) (K (peer c, 0)) (barCell (peer c)) ∗ cellInv ER (pairRd m ρ) (K (peer c, 2)) (recvCell (peer c)))

instance invs_persistent (K : Dev nD × Fin 3 → ℕ) (c : Dev nD) : BI.Persistent (invs m ρ K c) := by unfold invs; infer_instance

/-- The ghost state device c starts from: the invariants; its positions at round 0 of its three cells; the
    reached-marks of the cells it pays and of its own send and receive cells; the three duty tokens it pays with. -/
def ghost (K : Dev nD × Fin 3 → ℕ) (c : Dev nD) : sProp 𝕄 :=
  iprop(invs m ρ K c
    ∗ atPos ER (barCell c) 0 ∅ 0 ∗ atPos ER (sendCell c) 0 ∅ 0 ∗ atPos ER (recvCell c) 0 ∅ 0
    ∗ reached ER (barCell (peer c)) 0 ∗ reached ER (recvCell (peer c)) 0 ∗ reached ER (sendCell c) 0 ∗ reached ER (recvCell c) 0
    ∗ dutyTok ER (barCell (peer c)) 0 () ∗ dutyTok ER (recvCell (peer c)) 0 () ∗ dutyTok ER (sendCell c) 0 ())

/-- What device c's body starts from: that at some names, its two credit tokens and the level facts. -/
def start (c : Dev nD) : sProp 𝕄 :=
  iprop((∃ K, ghost m ρ K c) ∗ cred (tallyAt (barCell c) () 1) ∗ cred (tallyAt (recvCell c) () N) ∗ levAts L lv)

/-- The whole scratch at some contents. -/
def scrAny (c : Dev nD) : sProp 𝕄 := iprop(∃ f : Buf (Elt F) ((c : Thread nD τ).loc cc0_scratch0), ((c : Thread nD τ).loc cc0_scratch0) ↦{fullShare} f)

def Φ₀ (c : Dev nD) : sProp 𝕄 := iprop(start m ρ c ∗ scrAny c)
/-- After the point: the scratch whole again, the two own cells at zero, closed. -/
def Φ₁ (c : Dev nD) : sProp 𝕄 := iprop(scrAny (F := F) c ∗ semVal (sendCell c) 0 ∗ semVal (recvCell c) 0)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => outAt m ρ c
  Φ t := match t with
    | ⟨0, _⟩ => Φ₀ m ρ c
    | ⟨_ + 1, _⟩ => Φ₁ (F := F) c
  q _ := fullShare
  owed t := match t with
    | ⟨0, _⟩ => O₀ c
    | ⟨_ + 1, _⟩ => 0

abbrev 𝒱₀ : Variants := Variants.none

theorem bigSep_W (Φ : Fin cfg0.W → sProp 𝕄) : bigSep Finset.univ Φ = iprop(Φ (0 : Fin 2) ∗ Φ (1 : Fin 2)) := bigSep_W0 Φ

theorem fetch_0 (t : Fin cfg0.N) : (cfg0.win (0 : Fin 2)).fetch t = true := by rw [fin_N t]; rfl

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-! ## Contents of the slots -/

/-- A write of a whole view's payload fixes the view's elements whatever was there. -/
theorem write_univ_eq_on_set {κ : Kind} {sp : Space} {s : Shape} {e : EltTy} (v : View sig κ sp s e) (f g : v.ty.Contents (Elt F)) (w : s.Idx → Elt F e) :
    ∀ i ∈ v.set, v.write (Elt F) f w Finset.univ i = v.write (Elt F) g w Finset.univ i := by
  intro i hi
  obtain ⟨x, -, rfl⟩ := Finset.mem_map.mp hi
  rw [View.write_emb_of_mem _ _ (Finset.mem_univ x), View.write_emb_of_mem _ _ (Finset.mem_univ x)]

abbrev ro : Rect S1x1024 := Rect.unit (s := S1x1024) ![0, 0] S1x1024.size inb_S1x1024_S1x1024_0_0
abbrev rx : Rect S4096x1024 := Rect.unit (s := S4096x1024) ![0, 0] S4096x1024.size inb_S4096x1024_S4096x1024_0_0

theorem hz2 : (![0, 0] : Fin 2 → Nat) = fun _ => 0 := funext fun a => by fin_cases a <;> rfl
theorem read_x (f : (cc0_stg0_0 : Ref sig .tc).ty.Contents (Elt F)) : (xM : Memref sig .tc .vmem S4096x1024 .f32).view.readAt (Elt F) rx.toLoadRect f = f :=
  Memref.readAt_unit_zero (Elt F) cc0_stg0_0 hz2 _ f
theorem write_out (f w : (cc0_stg1_0 : Ref sig .tc).ty.Contents (Elt F)) :
    ((oM : Memref sig .tc .vmem S1x1024 .f32).access ro : View sig .tc _ _ _).write (Elt F) f w Finset.univ = w :=
  Memref.write_access_unit_zero_univ (Elt F) cc0_stg1_0 hz2 _ f w

/-- Slot 0 after the local store holds, on its own elements, the canonical contents whatever the scratch held. -/
theorem s0_canon (c : Dev nD) (f0 : Buf (Elt F) ((srcM : Memref sig .tc .vmem S1x1024 .f32).view.loc (c : Thread nD τ))) :
    ((srcM : Memref sig .tc .vmem S1x1024 .f32).view.loc (c : Thread nD τ) ↦[(srcM : Memref sig .tc .vmem S1x1024 .f32).view.set]{fullShare}
        ((sM : Memref sig .tc .vmem S2x1x1024 .f32).access r0).write (Elt F) f0
          (k0_pay2 ((xM : Memref sig .tc .vmem S4096x1024 .f32).view.readAt (Elt F) rx.toLoadRect (xstg m ρ c))) Finset.univ : sProp 𝕄)
      = ((srcM : Memref sig .tc .vmem S1x1024 .f32).view.loc (c : Thread nD τ) ↦[(srcM : Memref sig .tc .vmem S1x1024 .f32).view.set]{fullShare} canon0 m ρ c) := by
  rw [read_x]
  refine pointsTo_congr fun i hi => ?_
  rw [src_set] at hi
  unfold canon0 row
  exact write_univ_eq_on_set ((sM : Memref sig .tc .vmem S2x1x1024 .f32).access r0) _ _ _ i hi

/-- A whole buffer's points-to, spelt through its memref's view. -/
theorem whole_pts_eq (c : Dev nD) (b : Ref sig .tc) (q : PosShare TreeShare) (f : Buf (Elt F) ((c : Thread nD τ).loc b)) :
    (((c : Thread nD τ).loc b) ↦{q} f : sProp 𝕄)
      = ((Memref.whole b : Memref sig .tc _ _ _).view.loc (c : Thread nD τ) ↦[(Memref.whole b : Memref sig .tc _ _ _).view.set]{q} f) := by
  rw [show (Memref.whole b : Memref sig .tc _ _ _).view.set = Finset.univ from View.set_whole _]

/-! ## The body -/

section Body

variable (K : Dev nD × Fin 3 → ℕ)

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop((ghost m ρ K c ∗ cred (tallyAt (barCell c) () 1) ∗ cred (tallyAt (recvCell c) () N) ∗ levAts L lv ∗ scrAny c)
    ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

def bodyPost (c : Dev nD) : sProp 𝕄 :=
  iprop(Φ₁ (F := F) c ∗ (dats m ρ 0 c).owesAt () t₀.succ ∗ stg c cc0_stg0_0 (xstg m ρ c) ∗ stg c cc0_stg1_0 (outAt m ρ c))

/-- The schedule's rows with each payload written out as the points-to it is, the peer's peer resolved. -/
theorem payload_bar_peer (c : Dev nD) (d : Unit) : (pairRd (F := F) m ρ).payload (barCell (peer c)) 0 d
    = iprop((∃ f, (dstM : Memref sig .tc .vmem S1x1024 .f32).view.loc (c : Thread nD τ) ↦[(dstM : Memref sig .tc .vmem S1x1024 .f32).view.set]{fullShare} f) ∗ reached ER (recvCell c) 0) := by
  rw [payload_bar]; unfold barPay s1Pts; rw [peer_peer]
theorem payload_bar_own (c : Dev nD) (d : Unit) : (pairRd (F := F) m ρ).payload (barCell c) 0 d
    = iprop((∃ f, (dstM : Memref sig .tc .vmem S1x1024 .f32).view.loc (peer c : Thread nD τ) ↦[(dstM : Memref sig .tc .vmem S1x1024 .f32).view.set]{fullShare} f) ∗ reached ER (recvCell (peer c)) 0) := by
  rw [payload_bar]; unfold barPay s1Pts; rfl

theorem payload_send_pts (c : Dev nD) (d : Unit) : (pairRd (F := F) m ρ).payload (sendCell c) 0 d
    = ((srcM : Memref sig .tc .vmem S1x1024 .f32).view.loc (c : Thread nD τ) ↦[(srcM : Memref sig .tc .vmem S1x1024 .f32).view.set]{fullShare.right} canon0 m ρ c) := by
  rw [payload_send]; rfl
theorem payload_recv_peer (c : Dev nD) (d : Unit) : (pairRd (F := F) m ρ).payload (recvCell (peer c)) 0 d
    = iprop(∃ f, ⌜(dstM : Memref sig .tc .vmem S1x1024 .f32).view.read (Elt F) f = rowFlat m ρ c⌝
        ∗ ((dstM : Memref sig .tc .vmem S1x1024 .f32).view.loc (peer c : Thread nD τ) ↦[(dstM : Memref sig .tc .vmem S1x1024 .f32).view.set]{fullShare} f)) := by
  rw [payload_recv]; unfold recvPay s1Pts; rw [peer_peer]
theorem payload_recv_own (c : Dev nD) (d : Unit) : (pairRd (F := F) m ρ).payload (recvCell c) 0 d
    = iprop(∃ f, ⌜(dstM : Memref sig .tc .vmem S1x1024 .f32).view.read (Elt F) f = rowFlat m ρ (peer c)⌝
        ∗ ((dstM : Memref sig .tc .vmem S1x1024 .f32).view.loc (c : Thread nD τ) ↦[(dstM : Memref sig .tc .vmem S1x1024 .f32).view.set]{fullShare} f)) := by
  rw [payload_recv]; rfl

attribute [local sl_rounds] payload_send_pts payload_recv_own
attribute [local sl_rounds high] payload_recv_peer
attribute [local sl_rounds] duties_bar duties_send duties_recv amount_bar amount_send amount_recv expect_bar expect_send expect_recv
  payload_bar_own
attribute [local sl_rounds high] payload_bar_peer
attribute [local sl_canon] dev1_eq dev2_eq

/-- The copy to the peer at the pair's cells: the lent half of slot 0 comes back with the send cell's credit; the
    peer's slot 1, rewritten with this device's row, goes to the peer with its receive cell's. The target is a device
    `n` equal to the peer. -/
theorem wp_send_pair (c n : Dev nD) (hn : n = peer c)
    {hsc : (dstM : Memref sig (Dev.tc n : Thread nD τ).2.kind .vmem S1x1024 .f32).view.ref.isScScratch = false}
    {hsrc : (srcM : Memref sig .tc .vmem S1x1024 .f32).view.WordExact} {hdst : (dstM : Memref sig .tc .vmem S1x1024 .f32).view.WordExact}
    {hsem : DmaTarget.Typed .vmem (.dma recvS.sem) (.remote (Dev.tc n : Thread nD τ) (dstM : Memref sig .tc .vmem S1x1024 .f32) (.dma sendS.sem) hsc)}
    {α : Type} {Q : α → sProp 𝕄} {k : PUnit → Prog (TpuEff nD τ sig (Elt F) Λ₀ .tc) α}
    (fn : Buf (Elt F) ((dstM : Memref sig .tc .vmem S1x1024 .f32).view.loc (peer c : Thread nD τ))) (W : Waits sig Unit) :
    iprop(cellInv ER (pairRd m ρ) (K (c, 1)) (sendCell c) ∗ cellInv ER (pairRd m ρ) (K (peer c, 2)) (recvCell (peer c))
        ∗ s0Pts c fullShare.right (canon0 m ρ c) ∗ s1Pts (peer c) fn
        ∗ owes (c : Thread nD τ) (tallyAt (recvCell (peer c)) () N) W
        ∗ dutyTok ER (sendCell c) 0 () ∗ reached ER (sendCell c) 0
        ∗ dutyTok ER (recvCell (peer c)) 0 () ∗ reached ER (recvCell (peer c)) 0)
      ⊢ iprop(((cred (tallyAt (sendCell c) () N) ∗ owes (c : Thread nD τ) 0 W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma srcM (.remote (Dev.tc n : Thread nD τ) dstM (.dma sendS.sem) hsc) (.dma recvS.sem) hsrc hdst hsem) k) Q) := by
  subst hn
  unfold s0Pts s1Pts
  exact Rounds.wp_send_pointsTo 𝒱₀ ER (pairRd m ρ) (c : Thread nD τ) none (κ₁ := K (c, 1)) (κ₂ := K (peer c, 2))
    (r₁ := 0) (r₂ := 0) (d₁ := ()) (d₂ := ()) (fd := fn)
    (by rw [duties_send]; exact Finset.mem_singleton_self _) (by rw [duties_recv]; exact Finset.mem_singleton_self _)
    () () N rfl (amount_send m ρ c ()) (amount_recv m ρ (peer c) ()) 0 (by rw [zero_add]) (W := W)
    (by rw [payload_send]; unfold sendPay s0Pts; exact BI.Entails.refl _)
    (by
      rw [payload_recv]; unfold recvPay s1Pts
      iintro H
      iexists ((dstM : Memref sig .tc .vmem S1x1024 .f32).view.write (Elt F) fn ((srcM : Memref sig .tc .vmem S1x1024 .f32).view.read (Elt F) (canon0 m ρ c)) Finset.univ)
      isplitr
      · ipureintro; exact (View.read_write_univ _ _).trans ((src_read_canon0 m ρ c).trans (by rw [peer_peer]))
      · iexact H)

set_option maxHeartbeats 800000 in
theorem sound_body (c : Dev nD) (Kt : PUnit → sProp 𝕄) :
    iprop(bodyPre m ρ K c ∗ (bodyPost m ρ c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_scratch0) (Memref.isWhole_whole _) cc0_scratch1 cc0_scratch2) Kt := by
  simp only [cc0_body_eq_skeleton]; unfold cc0_body_skel
  simp only [k0_part1_eq_skeleton]; unfold k0_part1_skel
  unfold bodyPre ghost invs scrAny
  iintro ⟨⟨⟨⟨⟨#HIbar, #HIsnd, #HIrcv, #HIbarP, #HIrcvP⟩, HatB, HatS, HatV, #HrBP, #HrVP, #HrS, #HrV, HtBP, HtVP, HtS⟩, HcB, HcV, #Hlev, ⟨%f0, Hscr⟩⟩,
    Ho, ⟨%d0, %g0, %hg0, Hx⟩, ⟨%d1, %g1, %hg1, Hout⟩⟩, Hk⟩
  have hx : g0 = xstg m ρ c := by rw [hg0]; unfold Dat.before; rw [if_pos (fetch_0 t₀)]; rfl
  subst hx
  unfold Dat.owesAt Pipeline.owesWithin
  icases Ho with ⟨%W, %hW, HO⟩
  rw [show (dats m ρ 0 c).owed t₀.castSucc = O₀ c from rfl]
  unfold O₀
  -- the scratch cut into its slots
  ihave H1 := (pointsTo_split_subset (ℓ := (dstM : Memref sig .tc .vmem S1x1024 .f32).view.loc (c : Thread nD τ)) (q := fullShare) (f := f0) (Finset.subset_univ (dstM : Memref sig .tc .vmem S1x1024 .f32).view.set)).1 $$ Hscr
  icases H1 with ⟨Hs1, Hrest⟩
  ihave H0 := (pointsTo_split_subset (ℓ := (srcM : Memref sig .tc .vmem S1x1024 .f32).view.loc (c : Thread nD τ)) (q := fullShare) (f := f0) (Finset.subset_sdiff.mpr ⟨Finset.subset_univ (srcM : Memref sig .tc .vmem S1x1024 .f32).view.set, slots_disjoint⟩)).1 $$ Hrest
  icases H0 with ⟨Hs0, Hjunk⟩
  ihave Hx := (Entails.of_eq (whole_pts_eq c cc0_stg0_0 fullShare (xstg m ρ c))) $$ Hx
  ihave Hout := (Entails.of_eq (whole_pts_eq c cc0_stg1_0 fullShare g1)) $$ Hout
  have hMW := mayWait_bar (F := F) c
  sl_exec
  -- slot 0 at its canonical contents, one half lent to the copy
  unfold sound_body.sl.Hs0_w1
  ihave Hs0 := (Entails.of_eq (s0_canon m ρ c f0)) $$ Hs0
  ihave Hh := (pointsTo_share (IsOp.posShare_halves fullShare).mem_op).1 $$ Hs0
  icases Hh with ⟨Hs0L, Hs0R⟩
  -- the copy: the lent half of slot 0 departs; the peer's slot 1 will hold this device's row
  iapply (wp_send_pair m ρ K c _ (dev2_eq c) HatB_pay1_v _) $$ [Hs0R HatB_pay1 HO HtS HtVP]
  · isplitr; · iexact HIsnd
    isplitr; · iexact HIrcvP
    isplitl [Hs0R]; · unfold s0Pts; iexact Hs0R
    isplitl [HatB_pay1]; · unfold s1Pts; iexact HatB_pay1
    isplitl [HO]; · iexact HO
    isplitl [HtS]; · iexact HtS
    isplitr; · iexact HrS
    isplitl [HtVP]; · iexact HtVP
    iexact HrVP
  iintro ⟨HcS, HO⟩
  sl_exec
  -- the peer's row has landed in slot 1
  icases HatV_pay1 with ⟨%hfl, Hs1⟩
  sl_exec
  -- slot 0's halves rejoined, then the two slots and the rest of the scratch
  ihave Hs0 := (pointsTo_share (IsOp.posShare_halves fullShare).mem_op).2 $$ [Hs0L HatS_pay1]
  · isplitl [Hs0L] <;> iassumption
  ihave Hr := (pointsTo_join_subset (ℓ := (srcM : Memref sig .tc .vmem S1x1024 .f32).view.loc (c : Thread nD τ)) (q := fullShare) (Finset.subset_sdiff.mpr ⟨Finset.subset_univ (srcM : Memref sig .tc .vmem S1x1024 .f32).view.set, slots_disjoint⟩)) $$ [Hs0 Hjunk]
  · isplitl [Hs0] <;> iassumption
  ihave Hscr := (pointsTo_join_subset (ℓ := (dstM : Memref sig .tc .vmem S1x1024 .f32).view.loc (c : Thread nD τ)) (q := fullShare) (Finset.subset_univ (dstM : Memref sig .tc .vmem S1x1024 .f32).view.set)) $$ [Hs1 Hr]
  · isplitl [Hs1] <;> iassumption
  -- the two own cells close: their counters at zero are the device's again
  imod (Rounds.cell_close ER (pairRd m ρ) (Set.mem_univ (K (c, 1))) (fun h => h) (R := 0 + 1) (duties_later m ρ (sendCell c))) $$ [HatS] with HzS
  · isplitr; · iexact HIsnd
    iexact HatS
  imod (Rounds.cell_close ER (pairRd m ρ) (Set.mem_univ (K (c, 2))) (fun h => h) (R := 0 + 1) (duties_later m ρ (recvCell c))) $$ [HatV] with HzV
  · isplitr; · iexact HIrcv
    iexact HatV
  rw [wp_ret]; imodintro
  iapply Hk
  unfold bodyPost Φ₁ scrAny Dat.owesAt Pipeline.owesWithin
  rw [show (dats m ρ 0 c).owed t₀.succ = 0 from rfl]
  isplitl [Hscr HzS HzV]
  · isplitl [Hscr]; · iexists _; iexact Hscr
    isplitl [HzS]; · iexact HzS
    iexact HzV
  isplitl [HO]
  · iexists _
    isplitr
    rotate_left
    · iexact HO
    · ipureintro; exact fun _ _ => Or.inl trivial
  isplitl [Hx]
  · iexists _; isplitr; · (ipureintro; rfl)
    ihave Hx := (Entails.of_eq (whole_pts_eq c cc0_stg0_0 fullShare (xstg m ρ c)).symm) $$ Hx
    iexact Hx
  -- the stored result: (row c + what landed in slot 1) · 2⁻¹³, and slot 1 holds the peer's row
  iexists _
  isplitr
  rotate_left
  · ihave Hout := (Entails.of_eq (whole_pts_eq c cc0_stg1_0 fullShare _).symm) $$ Hout
    iexact Hout
  · ipureintro
    exact (write_out g1 _).trans (pay1_congr _ _ _ hfl)

/-- info: 'Cert.KernelIdealProof.sound_body' depends on axioms: [propext, Classical.choice, Quot.sound] -/
#guard_msgs in #print axioms sound_body

set_option maxRecDepth 4000 in
def bodyPre' (c : Dev nD) : sProp 𝕄 :=
  iprop(Φ₀ m ρ c ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

set_option maxRecDepth 4000 in
/-- The body obligation at device c: from the invariant before the one point, the staged block of x and the result's
    staging buffer, the body runs to the invariant after it with the result's buffer at `outAt c`. -/
theorem body_obligation (c : Dev nD) : BodyObligation (dats (F := F) m ρ 0 c) (defs₀ (F := F)) 𝒱₀ () Set.univ := fun t => by
  rw [fin_N t]
  rw [bigSep_W, bigSep_W]
  simp only [owns_whole_eq]
  show bodyPre' m ρ c ⊢ wp frame (wpE (defs₀ (F := F)) 𝒱₀ c none) Set.univ
    (cc0_body (Memref.whole cc0_stg0_0) (Memref.isWhole_whole _) (Memref.whole cc0_stg1_0) (Memref.isWhole_whole _)
      (Memref.whole cc0_scratch0) (Memref.isWhole_whole _) cc0_scratch1 cc0_scratch2) (fun _ => bodyPost m ρ c)
  unfold bodyPre' Φ₀ start
  iintro ⟨⟨⟨⟨%K, Hg⟩, Hrest⟩, Hscr⟩, Ho, Hx, Hout⟩
  iapply (sound_body m ρ K c fun _ => bodyPost m ρ c)
  unfold bodyPre
  isplitr []
  · isplitl [Hg Hrest Hscr]
    · isplitl [Hg]; · iexact Hg
      icases Hrest with ⟨H1, H2, H3⟩
      isplitl [H1]; · iexact H1
      isplitl [H2]; · iexact H2
      isplitl [H3]; · iexact H3
      iexact Hscr
    isplitl [Ho]; · iexact Ho
    isplitl [Hx] <;> iassumption
  · iintro H; iexact H

end Body

end Cert.KernelIdealProof

end
-- ==== Proof.LaunchKernelIdeal.lean ====
/-
  The launch of the exchange on all four devices, and its run.

  At launch every counter is zero.  The exchange's ghost state is dealt once for the whole mesh — each device's three
  cells at round 0, a token for each cell's one duty — and the cells' invariants are allocated for all devices under
  one update, because a pair's devices pay into each other's cells (and the handshake cell's counter is not the
  kernel's own but shared by every kernel with its id).  The tokens then move to their payers: a handshake cell's and
  a receive cell's to the owner's peer, a send cell's stays.  The units a device's cells are owed at launch are its
  launch credit: one on its handshake cell and a row's worth on its receive cell, both owed by its peer.

  The run: every weakly fair execution of the four kernels terminates, nothing faulting, the block of x unchanged on
  each device and the result on device c equal to (row c + row (peer c)) · 2⁻¹³.
-/
import proofs.«900959_g7700000000000960_dist_mean_ax0_xy_m4096_n1024_v7x_xy2x2_bf16_1_alg».proof.Proof.BodyKernelIdeal

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem ownSemFacts : Pipeline.OwnSemFacts cfg0.spec osem := by decide

theorem share_eq (c : Dev nD) (w : Fin cfg0.W) : (dats m ρ 0 c).share w = fullShare := by unfold Dat.share; split <;> rfl

theorem kcell_injective : Function.Injective (kcell : Dev nD × Fin 3 → GSem nD τ sig) := by
  rintro ⟨c, k⟩ ⟨c', k'⟩ h
  have h1 : c = c' := by have := congrArg (fun g : GSem nD τ sig => g.1.1) h; exact this
  subst h1
  have h2 : csem k = csem k' := congrArg Prod.snd h
  have : k = k' := by fin_cases k <;> fin_cases k' <;> first | rfl | exact absurd h2 (by decide)
  subst this; rfl
def pairCells : Finset (GSem nD τ sig) := Finset.univ.map ⟨kcell, kcell_injective⟩

/-- Each cell's one duty token, as minted. -/
abbrev tokOf (ck : Dev nD × Fin 3) : GSem nD τ sig × ℕ × Unit := (kcell ck, 0, ())
theorem tokOf_injective : Function.Injective (tokOf : Dev nD × Fin 3 → GSem nD τ sig × ℕ × Unit) :=
  fun a b h => kcell_injective (congrArg Prod.fst h)
def pairToks : Finset (GSem nD τ sig × ℕ × Unit) := Finset.univ.map ⟨tokOf, tokOf_injective⟩

def u₀ : UU :=
  (initOf (Pipeline.cells cfgs cellOf_inj) (Pipeline.launchToks cfgs cellOf_inj), initOf pairCells pairToks)

/-- The duty tokens of device c's own cells. -/
def toks (c : Dev nD) : sProp 𝕄 :=
  iprop(dutyTok ER (barCell c) 0 () ∗ dutyTok ER (sendCell c) 0 () ∗ dutyTok ER (recvCell c) 0 ())

/-- What the launch deals device c. -/
def G (c : Dev nD) : sProp 𝕄 :=
  iprop((bigSep Finset.univ fun k : Fin 3 => roundState ER (pairRd m ρ) (kcell (c, k)) 0)
    ∗ (bigSep Finset.univ fun k : Fin 3 => iprop(atPos ER (kcell (c, k)) 0 ∅ 0 ∗ reached ER (kcell (c, k)) 0)) ∗ toks c)

/-- What the global step makes of it. -/
def G' (c : Dev nD) : sProp 𝕄 := iprop(∃ K, ghost m ρ K c)

theorem bigSep_fin3 (Φ : Fin 3 → sProp 𝕄) : bigSep Finset.univ Φ = iprop(Φ 0 ∗ Φ 1 ∗ Φ 2) := bigSep_univ_eq_bigSepL [0, 1, 2] (by decide) (by decide) Φ

theorem fund_pair : BI.own (ER (initOf pairCells pairToks)) ⊢ (|==> bigSep Finset.univ (G m ρ) : sProp 𝕄) := by
  have hX (Φ : GSem nD τ sig → sProp 𝕄) : bigSep pairCells Φ = bigSep Finset.univ fun c : Dev nD => bigSep Finset.univ fun k : Fin 3 => Φ (kcell (c, k)) := by
    unfold pairCells; rw [bigSep_map, bigSep_univ_prod]; rfl
  have hT : bigSep pairToks (fun x => (dutyTok ER x.1 x.2.1 x.2.2 : sProp 𝕄)) = bigSep Finset.univ fun c : Dev nD => toks c := by
    unfold pairToks; rw [bigSep_map, bigSep_univ_prod]
    exact bigSep_congr fun c _ => by unfold toks; rw [bigSep_fin3]; rfl
  iintro HX
  imod (Rounds.fund ER (pairRd m ρ) pairCells pairToks) $$ HX with ⟨Hst, Hr, Hat, Htok⟩
  imodintro
  ihave Hst' := (Entails.of_eq (hX fun g => roundState ER (pairRd m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-- The send and receive semaphores are the kernel's own two; -/
theorem ownSems0_eq (c : Dev nD) : (Pipeline.ownSems0 (Ix := Unit) (Name := ℕ) (U := UU) (Lvl := ℕ) (Val := Elt F) (τ := τ) osem c : sProp 𝕄)
    = iprop(semVal (sendCell c) 0 ∗ semVal (recvCell c) 0) := by
  rw [Pipeline.ownSems0_eq_of_list c osem [0, 1] (by decide) (by decide)]; rfl
/-- the handshake semaphore the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 3 => semVal (kcell (c, k)) 0 : sProp 𝕄) := by
  rw [ownSems0_eq, unscopedSems0_eq, bigSep_fin3]
  iintro ⟨⟨HS, HV⟩, HB⟩
  isplitl [HB]; · iexact HB
  isplitl [HS] <;> iassumption

theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k => iprop(∃ κ : ℕ, cellInv ER (pairRd m ρ) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Fin 3 => semVal (kcell (c, k)) 0) ∗ bigSep Finset.univ fun k : Fin 3 => roundState ER (pairRd m ρ) (kcell (c, k)) 0)
      ⊢ (|={Set.univ}=> bigSep Finset.univ fun k => iprop(∃ κ : ℕ, cellInv ER (pairRd m ρ) κ (kcell (c, k))) : sProp 𝕄) from by
        rw [← bigSep_sep']
        exact (bigSep_mono fun k _ => (Rounds.body_intro ER (pairRd m ρ) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

def records (K : Dev nD × Fin 3 → ℕ) : sProp 𝕄 :=
  iprop((bigSep Finset.univ fun ck : Dev nD × Fin 3 => cellInv ER (pairRd m ρ) (K ck) (kcell ck))
    ∗ bigSep Finset.univ fun ck : Dev nD × Fin 3 => reached ER (kcell ck) 0)

instance records_persistent (K : Dev nD × Fin 3 → ℕ) : BI.Persistent (records m ρ K) := by unfold records; infer_instance

theorem inv_at (K : Dev nD × Fin 3 → ℕ) (ck : Dev nD × Fin 3) :
    (bigSep Finset.univ fun ck : Dev nD × Fin 3 => (cellInv ER (pairRd m ρ) (K ck) (kcell ck) : sProp 𝕄)) ⊢ cellInv ER (pairRd m ρ) (K ck) (kcell ck) :=
  bigSep_elim (Finset.mem_univ ck)
theorem reached_at (ck : Dev nD × Fin 3) :
    (bigSep Finset.univ fun ck : Dev nD × Fin 3 => (reached ER (kcell ck) 0 : sProp 𝕄)) ⊢ reached ER (kcell ck) 0 :=
  bigSep_elim (Finset.mem_univ ck)

/-- What stays with device c: its positions, and the tokens of the duties IT pays. -/
def payToks (c : Dev nD) : sProp 𝕄 :=
  iprop(dutyTok ER (barCell (peer c)) 0 () ∗ dutyTok ER (recvCell (peer c)) 0 () ∗ dutyTok ER (sendCell c) 0 ())
def linear (c : Dev nD) : sProp 𝕄 :=
  iprop((atPos ER (barCell c) 0 ∅ 0 ∗ atPos ER (sendCell c) 0 ∅ 0 ∗ atPos ER (recvCell c) 0 ∅ 0) ∗ payToks c)

theorem ghost_intro (K : Dev nD × Fin 3 → ℕ) (c : Dev nD) : iprop(records m ρ K ∗ linear c) ⊢ G' m ρ c := by
  unfold records linear payToks G' ghost invs
  iintro ⟨⟨#HI, #HR⟩, ⟨HaB, HaS, HaV⟩, HtBP, HtVP, HtS⟩
  iexists K
  isplitr
  · isplitr; · iapply (inv_at m ρ K (c, 0)); iexact HI
    isplitr; · iapply (inv_at m ρ K (c, 1)); iexact HI
    isplitr; · iapply (inv_at m ρ K (c, 2)); iexact HI
    isplitr; · iapply (inv_at m ρ K (peer c, 0)); iexact HI
    iapply (inv_at m ρ K (peer c, 2)); iexact HI
  isplitl [HaB]; · iexact HaB
  isplitl [HaS]; · iexact HaS
  isplitl [HaV]; · iexact HaV
  isplitr; · iapply (reached_at (F := F) (peer c, 0)); iexact HR
  isplitr; · iapply (reached_at (F := F) (peer c, 2)); iexact HR
  isplitr; · iapply (reached_at (F := F) (c, 1)); iexact HR
  isplitr; · iapply (reached_at (F := F) (c, 2)); iexact HR
  isplitl [HtBP]; · iexact HtBP
  isplitl [HtVP]; · iexact HtVP
  iexact HtS

/-- The tokens dealt across each pair: a handshake cell's and a receive cell's token to the owner's peer. -/
theorem toks_around : (bigSep Finset.univ fun c : Dev nD => (toks c : sProp 𝕄)) ⊢ bigSep Finset.univ fun c : Dev nD => payToks c := by
  unfold toks payToks
  rw [bigSep_sep', bigSep_sep', bigSep_sep', bigSep_sep',
    bigSep_univ_equiv pairing (fun c : Dev nD => (dutyTok ER (barCell c) 0 () : sProp 𝕄)),
    bigSep_univ_equiv pairing (fun c : Dev nD => (dutyTok ER (recvCell c) 0 () : sProp 𝕄))]
  iintro ⟨H1, H2, H3⟩
  isplitl [H1]; · iexact H1
  isplitl [H3]; · iexact H3
  iexact H2

theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (pairRd m ρ) κ (kcell (c, k))))
          ∗ (bigSep Finset.univ fun k => iprop(atPos ER (kcell (c, k)) 0 ∅ 0 ∗ reached ER (kcell (c, k)) 0)) ∗ toks c) : sProp 𝕄)
      ⊢ bigSep Finset.univ (G' m ρ) := by
  rw [bigSep_sep', bigSep_sep', ← bigSep_univ_prod (fun ck : Dev nD × Fin 3 => iprop(∃ κ : ℕ, cellInv ER (pairRd m ρ) κ (kcell ck))),
    bigSep_congr (s := Finset.univ) (fun (c : Dev nD) _ => bigSep_sep' Finset.univ (fun k : Fin 3 => (atPos ER (kcell (c, k)) 0 ∅ 0 : sProp 𝕄)) (fun k => reached ER (kcell (c, k)) 0)),
    bigSep_sep', ← bigSep_univ_prod (fun ck : Dev nD × Fin 3 => (reached ER (kcell ck) 0 : sProp 𝕄))]
  iintro ⟨HI, ⟨Hat, #HR⟩, Htok⟩
  ihave HK := (BI.bigSep_exists_pi Finset.univ (fun (ck : Dev nD × Fin 3) (κ : ℕ) => (cellInv ER (pairRd m ρ) κ (kcell ck) : sProp 𝕄))) $$ HI
  icases HK with ⟨%K, #HI⟩
  ihave Htk := (toks_around (F := F)) $$ Htok
  iapply (bigSep_with_persistent (R := records m ρ K) fun c _ => ghost_intro m ρ K c)
  isplitr
  · unfold records; isplitl; · iexact HI
    iexact HR
  · iapply ((Entails.of_eq (bigSep_sep' Finset.univ (fun c : Dev nD => bigSep Finset.univ fun k : Fin 3 => (atPos ER (kcell (c, k)) 0 ∅ 0 : sProp 𝕄)) payToks).symm).trans
      (bigSep_mono fun c _ => show _ ⊢ linear c from Entails.of_eq (by unfold linear; rw [bigSep_fin3])))
    isplitl [Hat]; · iexact Hat
    iexact Htk

/-- The global step: own AND unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ### The launch credit -/

theorem bar_eq_iff {a b : Dev nD} : Iff (barCell a = barCell b) (a = b) :=
  ⟨fun h => Fin.ext (congrArg (fun g : GSem nD τ sig => g.1.1.val) h), fun h => h ▸ rfl⟩
theorem recv_eq_iff {a b : Dev nD} : Iff (recvCell a = recvCell b) (a = b) :=
  ⟨fun h => Fin.ext (congrArg (fun g : GSem nD τ sig => g.1.1.val) h), fun h => h ▸ rfl⟩

/-- What device d owes device c's handshake cell: a unit if d is c's peer. -/
theorem owed_bar (d c : Dev nD) : O₀ d (barCell c) () = if d = peer c then 1 else 0 := by
  unfold O₀
  rw [Pi.add_apply, Finsupp.add_apply, tallyAt_ne_cell (fun h => recv_ne_bar (congrArg Prod.snd h).symm),
    tallyAt_apply, Finsupp.zero_apply, Nat.zero_add]
  by_cases h : d = peer c
  · subst h; rw [peer_peer, if_pos ⟨rfl, rfl⟩, if_pos rfl]
  · rw [if_neg (fun ⟨h1, _⟩ => h (((congrArg peer (bar_eq_iff.mp h1)).trans (peer_peer d)).symm)), if_neg h]

/-- What device d owes device c's receive cell: the row's credit if d is c's peer. -/
theorem owed_recv (d c : Dev nD) : O₀ d (recvCell c) () = if d = peer c then N else 0 := by
  unfold O₀
  rw [Pi.add_apply, Finsupp.add_apply, tallyAt_apply,
    tallyAt_ne_cell (fun h => recv_ne_bar (congrArg Prod.snd h)), Finsupp.zero_apply, Nat.add_zero]
  by_cases h : d = peer c
  · subst h; rw [peer_peer, if_pos ⟨rfl, rfl⟩, if_pos rfl]
  · rw [if_neg (fun ⟨h1, _⟩ => h (((congrArg peer (recv_eq_iff.mp h1)).trans (peer_peer d)).symm)), if_neg h]

theorem launch_bar (c : Dev nD) :
    tallyOn (barCell c) (launchCredit (Pipeline.owing O₀) 0 (barCell c)) = (tallyAt (barCell c) () 1 : CellTallies nD τ sig Unit) := by
  unfold tallyAt; refine congrArg _ (Finsupp.ext fun u => ?_); cases u
  rw [Pipeline.launchCredit_owing, Finsupp.single_eq_same, Finset.sum_congr rfl fun d _ => owed_bar d c,
    Finset.sum_ite_eq' Finset.univ (peer c) fun _ => 1, if_pos (Finset.mem_univ _)]

theorem launch_recv (c : Dev nD) :
    tallyOn (recvCell c) (launchCredit (Pipeline.owing O₀) 0 (recvCell c)) = (tallyAt (recvCell c) () N : CellTallies nD τ sig Unit) := by
  unfold tallyAt; refine congrArg _ (Finsupp.ext fun u => ?_); cases u
  rw [Pipeline.launchCredit_owing, Finsupp.single_eq_same, Finset.sum_congr rfl fun d _ => owed_recv d c,
    Finset.sum_ite_eq' Finset.univ (peer c) fun _ => N, if_pos (Finset.mem_univ _)]

theorem creds (c : Dev nD) :
    (Pipeline.launchCred O₀ c : sProp 𝕄) ⊢ iprop(cred (tallyAt (barCell c) () 1) ∗ cred (tallyAt (recvCell c) () N)) := by
  unfold Pipeline.launchCred
  rw [bigSep_univ_at _ (SemLoc.reg barS), launch_bar]
  refine sep_mono_right ?_
  rw [← launch_recv]
  exact bigSep_elim (Finset.mem_erase.mpr ⟨recv_ne_bar, Finset.mem_univ _⟩)

/-! ### The launch theorem's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds (F := F) c) $$ Hcr
  icases Hc with ⟨H1, HN⟩
  imodintro
  unfold start G'
  isplitl
  · isplitl [HG]; · iexact HG
    isplitl [H1]; · iexact H1
    isplitl [HN]; · iexact HN
    iexact Hlev
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ scrAny
  iintro ⟨Hs, -, ⟨%f, Hr⟩⟩
  isplitl [Hs]; · iexact Hs
  iexists f; iexact Hr

theorem phi1_exit (c : Dev nD) :
    (dats m ρ 0 c).Φ (Fin.last cfg0.N) ⊢ iprop(emp ∗ Pipeline.ownSems0 osem c ∗ Pipeline.scopedRest cfg0.spec c) := by
  rw [show (dats m ρ 0 c).Φ (Fin.last cfg0.N) = Φ₁ (F := F) c from rfl, scopedRest0_eq, ownSems0_eq]
  unfold Φ₁ scrAny
  iintro ⟨Hr, HzS, HzV⟩
  isplitr; · iempintro
  isplitl [HzS HzV]
  · isplitl [HzS] <;> iassumption
  iexact Hr

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ### The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- At the compiled mesh of four devices, for any float values, from any memory with zero counters: every weakly fair
    execution of @main — the pairs shaking hands, then exchanging their rows of sums — terminates, and every final
    state has each device's arrays at the computed contents. -/
theorem run_main : θ_run defs (onTc (τ := τ) (main (F := F))) (s₀ m ρ) (QC m ρ) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_pair m ρ) $$ HX with HG
      imodintro
      isplitl [HP] <;> iassumption)
    (hglob := glob m ρ)
    (hA := fun _ _ => rfl) (hpf := fun _ k => k.elim0)
    (X := start m ρ) (Y := fun _ => iprop(emp)) (Z := fun _ => iprop(emp))
    (hX := start_intro m ρ) (hin := phi0_intro m ρ) (hout := phi1_exit m ρ)
    (QY := fun _ _ => True)
    (hY := fun c s' => by
      iintro ⟨-, -, HSI⟩
      imodintro
      isplitr; · ipureintro; trivial
      iexact HSI)
    (hQ := fun _ h c w => (h c).1 w)

/-- info: 'Cert.KernelIdealProof.run_main' depends on axioms: [propext, Classical.choice, Quot.sound] -/
#guard_msgs in #print axioms run_main

/-! ### The final arrays -/

/-- The block of x after the run holds what it held. -/
theorem finalA_x (c : Dev nD) : finalA m ρ c (0 : Fin 2) = m ((c : Thread nD τ).loc main_arg0) :=
  (dats (F := F) m ρ 0 c).arrAt_in (0 : Fin 2) rfl _

/-- The result array after the run is what the one point wrote back: the whole of `outAt c`. -/
theorem finalA_out (c : Dev nD) : finalA m ρ c (1 : Fin 2) = outAt m ρ c := by
  unfold finalA
  have h1 := (dats m ρ 0 c).arrAt_succ (1 : Fin 2) t₀
  rw [if_pos (show (cfg0.win (1 : Fin 2)).flush t₀ = true from rfl)] at h1
  refine (show (dats m ρ 0 c).arrAt (1 : Fin 2) cfg0.N = (dats m ρ 0 c).arrAt (1 : Fin 2) (t₀.val + 1) from rfl).trans (h1.trans ?_)
  exact Memref.write_access_unit_zero_univ (Elt F) main_v1 (funext fun a => Nat.zero_mul _) _ _ _

/-- The run with its values named: on every device the result ends at `outAt c` and the block of x unchanged. -/
theorem run_values : θ_run defs (onTc (τ := τ) (main (F := F))) ⟨m, fun _ => 0, ρ⟩ (fun r => ∀ c : Dev nD,
    r.2.mem ((c.tc : Thread nD τ).loc main_v1) = outAt m ρ c
      ∧ r.2.mem ((c.tc : Thread nD τ).loc main_arg0) = m ((c.tc : Thread nD τ).loc main_arg0)) :=
  (θ_run defs _ _).mono (fun r h c => ⟨(h c (1 : Fin 2)).trans (finalA_out m ρ c), (h c (0 : Fin 2)).trans (finalA_x m ρ c)⟩) (run_main m ρ)

/-- info: 'Cert.KernelIdealProof.run_values' depends on axioms: [propext, Classical.choice, Quot.sound] -/
#guard_msgs in #print axioms run_values

end Cert.KernelIdealProof

end
-- ==== Proof.ValueIdeal.lean ====
/-
  The value of the exchange over the extended reals, against the mean over all rows.

  Over the extended reals a change of float format is the identity and every operation exact, so device
  c = 2·cx + cy ends with, at column l of its 1024,

      (Σ_{r<4096} x[4096·cx + r, 1024·cy + l]  +  Σ_{r<4096} x[4096·(1−cx) + r, 1024·cy + l]) · 2⁻¹³ ,

  its own half of the rows and its peer's.  The reference has (0 + Σ_{r<8192} x[r, 1024·cy + l]) / 8192 there.
  A sum over 8192 = 4096 + 4096 rows is the sum over the lower half plus the sum over the upper half, addition of
  extended reals is commutative (which half is "own" depends on cx), and dividing by the real 8192 is multiplying by
  the real 1/8192 on every extended real; 0x39000000 denotes 2⁻¹³ = 1/8192 and 0x46000000 denotes 2¹³ = 8192.  No
  finiteness is needed.
-/
import proofs.«900959_g7700000000000960_dist_mean_ax0_xy_m4096_n1024_v7x_xy2x2_bf16_1_alg».proof.Proof.LaunchKernelIdeal
import proofs.«900959_g7700000000000960_dist_mean_ax0_xy_m4096_n1024_v7x_xy2x2_bf16_1_alg».proof.Proof.Gen.ReferenceIdeal.Read
import Idealize.ShloMosaic.Lib.Layout
import Idealize.ShloMosaic.Lib.Pipeline.Value
import Idealize.ShloMosaic.PureOps.Ideal.Laws

noncomputable section

namespace Cert.ValueIdeal

open Cert.KernelIdeal Cert.KernelIdeal.Gen Cert.KernelIdealProof
open Idealize.ShloMosaic Idealize.ShloMosaic.TcCoe Idealize.SL.Sem

/-! ## The three literals -/

theorem ofBits_zero : Ideal.ofBits .f32 0x00000000#32 = 0 := by
  simp [Ideal.ofBits, Ideal.ieee]
theorem ofBits_8192 : Ideal.ofBits .f32 0x46000000#32 = ((8192 : ℝ) : EReal) := by
  simp [Ideal.ofBits, Ideal.ieee, -EReal.coe_mul]; norm_num
theorem ofBits_inv8192 : Ideal.ofBits .f32 0x39000000#32 = ((1 / 8192 : ℝ) : EReal) := by
  simp [Ideal.ofBits, Ideal.ieee, -EReal.coe_mul]; norm_num

/-! ## The mesh's block coordinates and the pairing, by arithmetic -/

theorem mb_in (c : Dev nD) : ((Layout.meshBlock [2, 2] ![[0], [1]] c) 0).val = c.val / 2
    ∧ ((Layout.meshBlock [2, 2] ![[0], [1]] c) 1).val = c.val % 2 := by revert c; decide
theorem mb_out (c : Dev nD) : ((Layout.meshBlock [2, 2] ![[], [1]] c) 0).val = 0
    ∧ ((Layout.meshBlock [2, 2] ![[], [1]] c) 1).val = c.val % 2 := by revert c; decide
theorem peer_coords (c : Dev nD) : (peer c).val / 2 = 1 - c.val / 2 ∧ (peer c).val % 2 = c.val % 2 := by revert c; decide
theorem cx_cases (c : Dev nD) : c.val / 2 = 0 ∨ c.val / 2 = 1 := by revert c; decide

/-! ## A sum over 8192 rows, by halves -/

theorem sum_halves (f : Fin 8192 → EReal) :
    ∑ k : Fin 8192, f k = (∑ k : Fin 4096, f ⟨k.val, by omega⟩) + ∑ k : Fin 4096, f ⟨4096 + k.val, by omega⟩ :=
  Fin.sum_univ_add (a := 4096) (b := 4096) (f : Fin (4096 + 4096) → EReal)

variable (m : (ℓ : Loc nD τ sig) → Buf (Elt Ideal) ℓ) (ρ : Dev nD → PrngReg)

/-! ## The kernel's result at an index -/

/-- The staged block is the device's block of x. -/
theorem xstg_eq (c : Dev nD) : xstg m ρ c = m ((c : Thread nD τ).loc main_arg0) :=
  Memref.read_access_unit_zero (Elt Ideal) main_arg0 (funext fun a => Nat.zero_mul _) _ _

/-- The staged block, a device's row of sums and its result, as functions into the extended reals. -/
abbrev xE (c : Dev nD) : S4096x1024.Idx → EReal := xstg m ρ c
abbrev rowE (c : Dev nD) : S1x1024.Idx → EReal := rowFlat (F := Ideal) m ρ c
abbrev outE (c : Dev nD) : S1x1024.Idx → EReal := outAt (F := Ideal) m ρ c

/-- A device's row of sums at column `j 1`: the sum of that column over the block's 4096 rows. -/
theorem rowE_apply (c : Dev nD) (j : S1x1024.Idx) :
    rowE m ρ c j = ∑ k : Fin 4096, xE m ρ c (reduces_S4096x1024_S1024.lift (fun a => j a.succ) k) := by
  unfold rowE rowFlat row k0_pay2
  dsimp only
  rw [shapeCast_shapeCast, shapeCast_addUnit_apply]
  refine (Ideal.multiReduction_add_single _ _ reduces_S4096x1024_S1024 _ _ (fun a => j a.succ)).trans ?_
  rw [shapeCast_self]
  rfl

/-- The result at an index: the two rows of sums, added and scaled. -/
theorem outE_apply (c : Dev nD) (j : S1x1024.Idx) :
    outE m ρ c j = (rowE m ρ c j + rowE m ρ (peer c) j) * Ideal.ofBits .f32 0x39000000#32 := by
  unfold outE outAt k0_pay1 rowE rowFlat
  rfl

/-! ## The reference's mean at an index -/

/-- The reference's result as a function into the extended reals. -/
abbrev refE (x' : Cert.ReferenceIdeal.S8192x2048.Idx → EReal) : Cert.ReferenceIdeal.S1x2048.Idx → EReal :=
  Cert.ReferenceIdeal.Read.val_main_v3 (F := Ideal) x'

/-- At column `i 1`: the sum of the column over all 8192 rows, times the real 1/8192. -/
theorem refE_apply (x' : Cert.ReferenceIdeal.S8192x2048.Idx → EReal) (i : Cert.ReferenceIdeal.S1x2048.Idx) :
    refE x' i = (∑ k : Fin 8192, x' (Cert.ReferenceIdeal.Read.idx_main_v0 (Cert.ReferenceIdeal.Read.idx_main_v1 i) k)) * ((1 / 8192 : ℝ) : EReal) := by
  unfold refE
  rw [Cert.ReferenceIdeal.Read.val_main_v3_apply, Cert.ReferenceIdeal.Read.val_main_v1_apply, Cert.ReferenceIdeal.Read.val_main_v0_apply,
    Cert.ReferenceIdeal.Read.val_main_v2_apply, Cert.ReferenceIdeal.Read.val_main_cst_0_apply, Cert.ReferenceIdeal.Read.val_main_cst_apply]
  simp only [Ideal.hostDivf_def, Ideal.ofBits_def]
  rw [ofBits_8192, ofBits_zero, Ideal.div_coe (by norm_num : (8192 : ℝ) ≠ 0), zero_add]

/-! ## The two are one function -/

/-- Device c's result is block c % 2 (of the two along the columns) of the reference's mean of the whole array of
    which every device's argument is its block. -/
theorem out_is_block (x' : Cert.ReferenceIdeal.S8192x2048.Idx → EReal)
    (hblk : ∀ d : Dev nD, m ((d : Thread nD τ).loc main_arg0)
      = Layout.blockN ⟨2, ![4096, 1024]⟩ ⟨2, ![8192, 2048]⟩ (Layout.meshBlock [2, 2] ![[0], [1]] d) x')
    (c : Dev nD) :
    outAt (F := Ideal) m ρ c = Layout.blockN ⟨2, ![1, 1024]⟩ ⟨2, ![1, 2048]⟩ (Layout.meshBlock [2, 2] ![[], [1]] c) (refE x') := by
  funext j
  show outE m ρ c j = refE x' _
  have hx : ∀ d : Dev nD, xE m ρ d = Layout.blockN ⟨2, ![4096, 1024]⟩ ⟨2, ![8192, 2048]⟩ (Layout.meshBlock [2, 2] ![[0], [1]] d) x' :=
    fun d => (xstg_eq m ρ d).trans (hblk d)
  rw [outE_apply, rowE_apply, rowE_apply, refE_apply, ofBits_inv8192, hx c, hx (peer c)]
  congr 1
  rw [sum_halves]
  rcases cx_cases c with h0 | h1
  · refine congrArg₂ (· + ·) (Finset.sum_congr rfl fun k _ => congrArg x' (funext fun a => Fin.ext ?_))
      (Finset.sum_congr rfl fun k _ => congrArg x' (funext fun a => Fin.ext ?_))
    · match a with
      | ⟨0, _⟩ =>
        show ((Layout.meshBlock [2, 2] ![[0], [1]] c) 0).val * 4096 + k.val = k.val
        rw [(mb_in c).1, h0]; omega
      | ⟨1, _⟩ =>
        show ((Layout.meshBlock [2, 2] ![[0], [1]] c) 1).val * 1024 + (j 1).val = ((Layout.meshBlock [2, 2] ![[], [1]] c) 1).val * 1024 + (j 1).val
        rw [(mb_in c).2, (mb_out c).2]
    · match a with
      | ⟨0, _⟩ =>
        show ((Layout.meshBlock [2, 2] ![[0], [1]] (peer c)) 0).val * 4096 + k.val = 4096 + k.val
        rw [(mb_in (peer c)).1, (peer_coords c).1, h0]
      | ⟨1, _⟩ =>
        show ((Layout.meshBlock [2, 2] ![[0], [1]] (peer c)) 1).val * 1024 + (j 1).val = ((Layout.meshBlock [2, 2] ![[], [1]] c) 1).val * 1024 + (j 1).val
        rw [(mb_in (peer c)).2, (peer_coords c).2, (mb_out c).2]
  · rw [add_comm]
    refine congrArg₂ (· + ·) (Finset.sum_congr rfl fun k _ => congrArg x' (funext fun a => Fin.ext ?_))
      (Finset.sum_congr rfl fun k _ => congrArg x' (funext fun a => Fin.ext ?_))
    · match a with
      | ⟨0, _⟩ =>
        show ((Layout.meshBlock [2, 2] ![[0], [1]] (peer c)) 0).val * 4096 + k.val = k.val
        rw [(mb_in (peer c)).1, (peer_coords c).1, h1]; omega
      | ⟨1, _⟩ =>
        show ((Layout.meshBlock [2, 2] ![[0], [1]] (peer c)) 1).val * 1024 + (j 1).val = ((Layout.meshBlock [2, 2] ![[], [1]] c) 1).val * 1024 + (j 1).val
        rw [(mb_in (peer c)).2, (peer_coords c).2, (mb_out c).2]
    · match a with
      | ⟨0, _⟩ =>
        show ((Layout.meshBlock [2, 2] ![[0], [1]] c) 0).val * 4096 + k.val = 4096 + k.val
        rw [(mb_in c).1, h1]
      | ⟨1, _⟩ =>
        show ((Layout.meshBlock [2, 2] ![[0], [1]] c) 1).val * 1024 + (j 1).val = ((Layout.meshBlock [2, 2] ![[], [1]] c) 1).val * 1024 + (j 1).val
        rw [(mb_in c).2, (mb_out c).2]

/-- info: 'Cert.ValueIdeal.out_is_block' depends on axioms: [propext, Classical.choice, Quot.sound] -/
#guard_msgs in #print axioms out_is_block

end Cert.ValueIdeal

end
-- ==== Proof.lean ====
/-
  The column mean of a [8192, 2048] array, computed on a 2 × 2 mesh by an exchange between the two devices that
  share a column block, against the mean taken on one device over the whole array.

  Device c = 2·cx + cy holds rows 4096·cx ..+4096, columns 1024·cy ..+1024.  It sums its rows, exchanges that row of
  sums with peer c = 2·(1 − cx) + cy after a handshake, adds the two and scales by 2⁻¹³ = 1/8192.

  The frames of the kernel (at words and over the extended reals) are the run of the exchange on all four devices with
  its values forgotten: one device's body stepped at a symbolic device, launched under levels that order the waits
  (handshake cell below receive cell, a device owing only its peer's receive credit when it waits for the handshake).
  The reference's frame is its run.  No operation was rewritten by the idealization, so nothing is to preserve.
  Over the extended reals the result on device c is block cy of the reference's mean: the sum over 8192 rows is the
  sum over the two halves in either order, and division by 8192 is multiplication by 1/8192.
-/
import proofs.«900959_g7700000000000960_dist_mean_ax0_xy_m4096_n1024_v7x_xy2x2_bf16_1_alg».proof.Defs
import proofs.«900959_g7700000000000960_dist_mean_ax0_xy_m4096_n1024_v7x_xy2x2_bf16_1_alg».proof.Proof.Gen.Kernel
import proofs.«900959_g7700000000000960_dist_mean_ax0_xy_m4096_n1024_v7x_xy2x2_bf16_1_alg».proof.Proof.Gen.KernelIdeal
import proofs.«900959_g7700000000000960_dist_mean_ax0_xy_m4096_n1024_v7x_xy2x2_bf16_1_alg».proof.Proof.Gen.ReferenceIdeal
import proofs.«900959_g7700000000000960_dist_mean_ax0_xy_m4096_n1024_v7x_xy2x2_bf16_1_alg».proof.Proof.Gen.ReferenceIdeal.Run
import proofs.«900959_g7700000000000960_dist_mean_ax0_xy_m4096_n1024_v7x_xy2x2_bf16_1_alg».proof.Proof.Gen.ReferenceIdeal.Read
import proofs.«900959_g7700000000000960_dist_mean_ax0_xy_m4096_n1024_v7x_xy2x2_bf16_1_alg».proof.Proof.Gen.Pre_finite_inputs_Kernel
import proofs.«900959_g7700000000000960_dist_mean_ax0_xy_m4096_n1024_v7x_xy2x2_bf16_1_alg».proof.Proof.Gen.Pre_finite_inputs_ReferenceIdeal
import proofs.«900959_g7700000000000960_dist_mean_ax0_xy_m4096_n1024_v7x_xy2x2_bf16_1_alg».proof.Proof.LaunchKernel
import proofs.«900959_g7700000000000960_dist_mean_ax0_xy_m4096_n1024_v7x_xy2x2_bf16_1_alg».proof.Proof.LaunchKernelIdeal
import proofs.«900959_g7700000000000960_dist_mean_ax0_xy_m4096_n1024_v7x_xy2x2_bf16_1_alg».proof.Proof.ValueIdeal
import Idealize.ShloMosaic.Adequacy
import Idealize.ShloMosaic.Init

noncomputable section

namespace Cert.Proof

open Idealize.ShloMosaic Idealize.SL.Sem

/-- The word-level kernel's run, its values forgotten. -/
theorem frame_k : Cert.frame_Kernel := fun m ρ _ =>
  (θ_run Cert.Kernel.defs _ _).mono (fun _ h c => (h c).2) (Cert.KernelProof.run_values (F := Bits) m ρ)

/-- The idealized kernel's run, its values forgotten. -/
theorem frame_ki : Cert.frame_KernelIdeal := fun m ρ _ =>
  (θ_run Cert.KernelIdeal.defs _ _).mono (fun _ h c => (h c).2) (Cert.KernelIdealProof.run_values (F := Ideal) m ρ)

/-- The reference's run, its result forgotten. -/
theorem frame_ri : Cert.frame_ReferenceIdeal := fun m ρ _ =>
  (θ_run Cert.ReferenceIdeal.defs _ _).mono (fun _ h c => (h c).2) (Cert.ReferenceIdeal.Value.run (F := Ideal) m ρ)

/-- Both programs run; the reference ends at the mean of the whole array, each device at its block of it. -/
theorem algebraic : Cert.algebraic_KernelIdeal_ReferenceIdeal := by
  intro m g m' g' _ hagree
  refine ⟨Cert.ReferenceIdeal.Read.val_main_v3 (F := Ideal) (m' (((0 : Dev Cert.ReferenceIdeal.nD).tc : Thread Cert.ReferenceIdeal.nD Cert.ReferenceIdeal.τ).loc Cert.ReferenceIdeal.main_arg0)), ?_, ?_⟩
  · exact (θ_run Cert.KernelIdeal.defs _ _).mono
      (fun _ h c => ⟨(h c).1.trans (Cert.ValueIdeal.out_is_block m g _ hagree c), (h c).2⟩)
      (Cert.KernelIdealProof.run_values (F := Ideal) m g)
  · exact (θ_run Cert.ReferenceIdeal.defs _ _).mono
      (fun _ h => ⟨(h 0).1.trans (Cert.ReferenceIdeal.Read.val_main_v3_eq _), (h 0).2⟩)
      (Cert.ReferenceIdeal.Value.run (F := Ideal) m' g')

theorem claim : Cert.Claim := ⟨Cert.Kernel.Gen.facts, Cert.KernelIdeal.Gen.facts, Cert.ReferenceIdeal.Gen.facts, Cert.Pre_finite_inputs_Kernel.Gen.facts, Cert.Pre_finite_inputs_ReferenceIdeal.Gen.facts,
  frame_k, frame_ki, frame_ri, trivial, algebraic⟩

end Cert.Proof

end
